-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x14x14 : Shape := ⟨4, ![128, 512, 14, 14]⟩
abbrev S64x512 : Shape := ⟨2, ![64, 512]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S128x512x14x14 : S_.BroadcastsInDim S128x512x14x14 (![] : Fin 0 → Fin S128x512x14x14.rank)
  reducesTo_S128x512x14x14_S_d0_1_2_3 : S128x512x14x14.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S128x512x14x14 .f32) (main_arg1 : FVec F S64x512 .f32) (main_arg2 : FVec F S64 .f32) (main_arg3 : FVec F S512x64 .f32) (main_arg4 : FVec F S512 .f32) : IVec S_ 1 :=
  let main_v0 : FVec F S128x512x14x14 .f32 := Host.absf main_arg0
  let main_cst : FVec F S_ .f32 := constant S_ .f32 0x7F800000#32
  let main_v1 : FVec F S128x512x14x14 .f32 := broadcastInDim S128x512x14x14 ![] bcast_S_S128x512x14x14 main_cst
  let main_v2 : IVec S128x512x14x14 1 := cmpf .olt main_v0 main_v1
  let main_c : IVec S_ 1 := constantI S_ 1 1#1
  let main_v3 : IVec S_ 1 := (fun x v => Host.reduce IntOp.andi x v reducesTo_S128x512x14x14_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S128x512x14x14 : Shape := ⟨4, ![128, 512, 14, 14]⟩
abbrev S64x512 : Shape := ⟨2, ![64, 512]⟩
abbrev S64 : Shape := ⟨1, ![64]⟩
abbrev S512x64 : Shape := ⟨2, ![512, 64]⟩
abbrev S512 : Shape := ⟨1, ![512]⟩
abbrev S14x14x128x512 : Shape := ⟨4, ![14, 14, 128, 512]⟩
abbrev S196x128x512 : Shape := ⟨3, ![196, 128, 512]⟩
abbrev S1x64 : Shape := ⟨2, ![1, 64]⟩
abbrev S1x512 : Shape := ⟨2, ![1, 512]⟩
abbrev S196x16x512 : Shape := ⟨3, ![196, 16, 512]⟩
abbrev S16x512 : Shape := ⟨2, ![16, 512]⟩
abbrev S16x64 : Shape := ⟨2, ![16, 64]⟩
abbrev S1x16x512 : Shape := ⟨3, ![1, 16, 512]⟩

abbrev nBuf : Space → Nat
  | .hbm => 14
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S64x512, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S14x14x128x512, .f32⟩
  | .hbm, ⟨6, _⟩ => ⟨S196x128x512, .f32⟩
  | .hbm, ⟨7, _⟩ => ⟨S512x64, .f32⟩
  | .hbm, ⟨8, _⟩ => ⟨S64x512, .f32⟩
  | .hbm, ⟨9, _⟩ => ⟨S1x64, .f32⟩
  | .hbm, ⟨10, _⟩ => ⟨S1x512, .f32⟩
  | .hbm, ⟨11, _⟩ => ⟨S196x128x512, .f32⟩
  | .hbm, ⟨12, _⟩ => ⟨S14x14x128x512, .f32⟩
  | .hbm, ⟨13, _⟩ => ⟨S128x512x14x14, .f32⟩
  | .local _ .vmem, ⟨0, _⟩ => ⟨S196x16x512, .f32⟩
  | .local _ .vmem, ⟨1, _⟩ => ⟨S196x16x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x512, .f32⟩
  | .local _ .vmem, ⟨6, _⟩ => ⟨S196x16x512, .f32⟩
  | .local _ .vmem, ⟨7, _⟩ => ⟨S196x16x512, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S196x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S196x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x14x14_S14x14x128x512_2_3_0_1 : S128x512x14x14.Transposes [2, 3, 0, 1] S14x14x128x512
  shapeCasts_S14x14x128x512_S196x128x512 : S14x14x128x512.ShapeCasts S196x128x512
  transposes_S64x512_S512x64_1_0 : S64x512.Transposes [1, 0] S512x64
  transposes_S512x64_S64x512_1_0 : S512x64.Transposes [1, 0] S64x512
  shapeCasts_S64_S1x64 : S64.ShapeCasts S1x64
  shapeCasts_S512_S1x512 : S512.ShapeCasts S1x512
  inb_S196x16x512_S196x16x512_0_0_0 : ∀ a, (![0, 0, 0] : Fin 3 → Nat) a + S196x16x512.size a ≤ S196x16x512.size a
  h_S196x16x512 : 0 < S196x16x512.numel
  shapeCasts_S196x16x512_S196x16x512 : S196x16x512.ShapeCasts S196x16x512
  reduces_S196x16x512_S16x512 : S196x16x512.Reduces [0] S16x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16x64 : S1x64.Broadcasts S16x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  shapeCasts_S16x512_S1x16x512 : S16x512.ShapeCasts S1x16x512
  broadcasts_S1x16x512_S196x16x512 : S1x16x512.Broadcasts S196x16x512
  shapeCasts_S196x128x512_S14x14x128x512 : S196x128x512.ShapeCasts S14x14x128x512
  transposes_S14x14x128x512_S128x512x14x14_2_3_0_1 : S14x14x128x512.Transposes [2, 3, 0, 1] S128x512x14x14
  dot_S16x512_S512x64_S16x64_1_0_0_1_n_n_wf : DotDims.WF S16x512 S512x64 S16x64 [1] [0] [0] [1] [] []
  dot_S16x64_S64x512_S16x512_1_0_0_1_n_n_wf : DotDims.WF S16x64 S64x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S196x16x512.size a ≤ S196x128x512.size a
  hwx0_0 : ∀ i : grid0.Coords, EltTy.bits .f32 = 32 ∨ (Rect.block (s := S196x128x512) S196x16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S196x16x512.size a ≤ S196x128x512.size a
  hwx0_5 : ∀ i : grid0.Coords, EltTy.bits .f32 = 32 ∨ (Rect.block (s := S196x128x512) S196x16x512.size (cc0_transform_5 i) (hinb0_5 i)).WholeWords (EltTy.packing .f32)

variable [Facts₀]

def dot_S16x512_S512x64_S16x64_1_0_0_1_n_n : DotDims S16x512 S512x64 S16x64 where
  lhsContracting := [1]
  rhsContracting := [0]
  lhsNonContracting := [0]
  rhsNonContracting := [1]
  lhsBatch := []
  rhsBatch := []
  wf := dot_S16x512_S512x64_S16x64_1_0_0_1_n_n_wf
def dot_S16x64_S64x512_S16x512_1_0_0_1_n_n : DotDims S16x64 S64x512 S16x512 where
  lhsContracting := [1]
  rhsContracting := [0]
  lhsNonContracting := [0]
  rhsNonContracting := [1]
  lhsBatch := []
  rhsBatch := []
  wf := dot_S16x64_S64x512_S16x512_1_0_0_1_n_n_wf

abbrev win0_0 : Pipeline.Window sig grid0 :=
  Pipeline.Window.ofSpec (Memref.whole main_v1) S196x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S196x16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x14x14 : Shape := ⟨4, ![128, 512, 14, 14]⟩
abbrev S64x512 : Shape := ⟨2, ![64, 512]⟩
abbrev S64 : Shape := ⟨1, ![64]⟩
abbrev S512x64 : Shape := ⟨2, ![512, 64]⟩
abbrev S512 : Shape := ⟨1, ![512]⟩
abbrev S128x512x196 : Shape := ⟨3, ![128, 512, 196]⟩
abbrev S1x64 : Shape := ⟨2, ![1, 64]⟩
abbrev S512x1 : Shape := ⟨2, ![512, 1]⟩
abbrev S1x512x196 : Shape := ⟨3, ![1, 512, 196]⟩
abbrev S512x196 : Shape := ⟨2, ![512, 196]⟩

abbrev nBuf : Space → Nat
  | .hbm => 11
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S64x512, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S128x512x196, .f32⟩
  | .hbm, ⟨6, _⟩ => ⟨S512x64, .f32⟩
  | .hbm, ⟨7, _⟩ => ⟨S1x64, .f32⟩
  | .hbm, ⟨8, _⟩ => ⟨S512x1, .f32⟩
  | .hbm, ⟨9, _⟩ => ⟨S128x512x196, .f32⟩
  | .hbm, ⟨10, _⟩ => ⟨S128x512x14x14, .f32⟩
  | .local _ .vmem, ⟨0, _⟩ => ⟨S1x512x196, .f32⟩
  | .local _ .vmem, ⟨1, _⟩ => ⟨S1x512x196, .f32⟩
  | .local _ .vmem, ⟨2, _⟩ => ⟨S512x64, .f32⟩
  | .local _ .vmem, ⟨3, _⟩ => ⟨S1x64, .f32⟩
  | .local _ .vmem, ⟨4, _⟩ => ⟨S512x64, .f32⟩
  | .local _ .vmem, ⟨5, _⟩ => ⟨S512x1, .f32⟩
  | .local _ .vmem, ⟨6, _⟩ => ⟨S1x512x196, .f32⟩
  | .local _ .vmem, ⟨7, _⟩ => ⟨S1x512x196, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x512x14x14_S128x512x196 : S128x512x14x14.ShapeCasts S128x512x196
  transposes_S64x512_S512x64_1_0 : S64x512.Transposes [1, 0] S512x64
  shapeCasts_S64_S1x64 : S64.ShapeCasts S1x64
  shapeCasts_S512_S512x1 : S512.ShapeCasts S512x1
  inb_S1x512x196_S1x512x196_0_0_0 : ∀ a, (![0, 0, 0] : Fin 3 → Nat) a + S1x512x196.size a ≤ S1x512x196.size a
  h_S1x512x196 : 0 < S1x512x196.numel
  shapeCasts_S1x512x196_S512x196 : S1x512x196.ShapeCasts S512x196
  reduces_S512x196_S512 : S512x196.Reduces [1] S512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  reduces_S512x64_S64 : S512x64.Reduces [0] S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x196 : S512x1.Broadcasts S512x196
  shapeCasts_S512x196_S1x512x196 : S512x196.ShapeCasts S1x512x196
  shapeCasts_S128x512x196_S128x512x14x14 : S128x512x196.ShapeCasts S128x512x14x14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x196.size a ≤ S128x512x196.size a
  hwx0_0 : ∀ i : grid0.Coords, EltTy.bits .f32 = 32 ∨ (Rect.block (s := S128x512x196) S1x512x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x196.size a ≤ S128x512x196.size a
  hwx0_5 : ∀ i : grid0.Coords, EltTy.bits .f32 = 32 ∨ (Rect.block (s := S128x512x196) S1x512x196.size (cc0_transform_5 i) (hinb0_5 i)).WholeWords (EltTy.packing .f32)

variable [Facts₀]

abbrev win0_0 : Pipeline.Window sig grid0 :=
  Pipeline.Window.ofSpec (Memref.whole main_v0) S1x512x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x196.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.ChannelGate.lean ====
/-
  The channel gate of a squeeze-and-excitation layer for ONE sample, on the extended reals.

  A sample is a 512 × 196 matrix `X` (channels × flattened 14 × 14 positions). Its channel means are pooled with the
  float literal both programs carry for 1/196 (the same word on both sides, so its value is never needed), pushed
  through a 512 → 64 affine map with a floor at the literal zero, then a 64 → 512 affine map and the logistic
  function; every entry of the sample is multiplied by its channel's gate. Both programs compute this; they differ
  only in the order of the factors inside the two contractions, and multiplication of extended reals commutes.
-/
import Idealize.ShloMosaic.PureOps.Ideal
import Idealize.ShloMosaic.Lib.ValueIdx

noncomputable section

open scoped BigOperators

namespace Cert.ChannelGate

open Idealize.ShloMosaic Idealize.ShloMosaic.ValueIdx

/-- The literal both programs multiply a channel's sum by (the single-precision word nearest 1/196). -/
abbrev invArea : EReal := Ideal.ofBits .f32 0x3BA72F05#32
/-- The literal both programs floor the hidden units at. -/
abbrev floor0 : EReal := Ideal.ofBits .f32 0x00000000#32

section OneSample

variable (X : Fin 512 → Fin 196 → EReal) (w1 : Fin 64 → Fin 512 → EReal) (b1 : Fin 64 → EReal)
  (w2 : Fin 512 → Fin 64 → EReal) (b2 : Fin 512 → EReal)

/-- Channel `k`'s pooled value: the sum over the 196 positions times the literal. -/
def pooled (k : Fin 512) : EReal := (∑ s : Fin 196, X k s) * invArea

/-- Hidden unit `r`: the pooled channels against row `r` of the first weight, plus its bias, floored. -/
def hidden (r : Fin 64) : EReal := max ((∑ k : Fin 512, pooled X k * w1 r k) + b1 r) floor0

/-- Channel `c`'s gate: the hidden units against row `c` of the second weight, plus its bias, through the logistic. -/
def gate (c : Fin 512) : EReal := Ideal.logistic ((∑ r : Fin 64, hidden X w1 b1 r * w2 c r) + b2 c)

/-- The gated sample. -/
def scaled (c : Fin 512) (s : Fin 196) : EReal := X c s * gate X w1 b1 w2 b2 c

/-- The hidden unit with each product's factors the other way round. -/
theorem hidden_swap (r : Fin 64) :
    max ((∑ k : Fin 512, w1 r k * pooled X k) + b1 r) floor0 = hidden X w1 b1 r := by
  unfold hidden
  congr 2
  exact Finset.sum_congr rfl fun k _ => mul_comm _ _

/-- The gate with each product's factors the other way round, over hidden units written that way too. -/
theorem gate_swap (c : Fin 512) :
    Ideal.logistic ((∑ r : Fin 64, w2 c r * max ((∑ k : Fin 512, w1 r k * pooled X k) + b1 r) floor0) + b2 c)
      = gate X w1 b1 w2 b2 c := by
  unfold gate
  congr 2
  exact Finset.sum_congr rfl fun r _ => by rw [hidden_swap, mul_comm]

end OneSample

/-- The whole result over the five argument arrays: entry (b, c, h, w) is sample `b`, read as the 512 × 196 matrix
    whose column `s` is position (s / 14, s % 14), gated, at channel `c` and column 14 h + w. -/
def result (x : (⟨4, ![128, 512, 14, 14]⟩ : Shape).Idx → EReal) (w1 : (⟨2, ![64, 512]⟩ : Shape).Idx → EReal)
    (b1 : (⟨1, ![64]⟩ : Shape).Idx → EReal) (w2 : (⟨2, ![512, 64]⟩ : Shape).Idx → EReal)
    (b2 : (⟨1, ![512]⟩ : Shape).Idx → EReal) : (⟨4, ![128, 512, 14, 14]⟩ : Shape).Idx → EReal := fun i =>
  scaled (fun k s => x (ix4 (i 0) k ⟨s.val / 14, by have := s.isLt; omega⟩ ⟨s.val % 14, by omega⟩))
    (fun r k => w1 (ix2 r k)) (fun r => b1 (ix1 r)) (fun c r => w2 (ix2 c r)) (fun c => b2 (ix1 c))
    (i 1) ⟨(i 2).val * 14 + (i 3).val, by
      have h2 : (i 2).val < 14 := (i 2).isLt
      have h3 : (i 3).val < 14 := (i 3).isLt
      omega⟩

end Cert.ChannelGate

end
-- ==== Proof.KernelBody.lean ====
/-
  The idealized kernel's body at an index.

  One grid point holds 16 samples: its input block `x0` is 196 × 16 × 512 (position, sample, channel), the weights
  arrive transposed (`x1` is 512 × 64, `x3` is 64 × 512) and the biases as single rows. The body sums the block over
  its leading axis, scales by the literal, contracts with `x1` on the matrix unit into a zero accumulator, adds the
  bias row, floors at the literal zero, contracts with `x3`, adds the second bias row, applies the logistic and
  multiplies every position of a (sample, channel) column by that column's gate. Read at (s, b, c) this is sample
  `b`'s gated matrix at (c, s): the lane sum is a sum over the 196 positions, each matrix product a sum over its one
  contracted axis, and everything else acts entry by entry.
-/
import proofs.«108726_g2000300965261445_pallasbulk_831_5_alg».proof.Proof.Gen.KernelIdeal.Skeleton
import proofs.«108726_g2000300965261445_pallasbulk_831_5_alg».proof.Proof.ChannelGate
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-! ## The two contractions, read at an index -/

theorem lhs_first_0 (i : S16x64.Idx) (q : dot_S16x512_S512x64_S16x64_1_0_0_1_n_n.contr.Idx) :
    (dot_S16x512_S512x64_S16x64_1_0_0_1_n_n.lhsIdx i q 0).val = (i 0).val := by
  unfold DotDims.lhsIdx
  rw [dif_neg (show ¬(0 : Fin S16x512.rank) ∈ dot_S16x512_S512x64_S16x64_1_0_0_1_n_n.lhsBatch by decide),
    dif_pos (show (0 : Fin S16x512.rank) ∈ dot_S16x512_S512x64_S16x64_1_0_0_1_n_n.lhsNonContracting by decide)]
  rfl
theorem lhs_first_1 (i : S16x64.Idx) (q : dot_S16x512_S512x64_S16x64_1_0_0_1_n_n.contr.Idx) :
    (dot_S16x512_S512x64_S16x64_1_0_0_1_n_n.lhsIdx i q 1).val = (q ⟨0, by decide⟩).val :=
  dot_S16x512_S512x64_S16x64_1_0_0_1_n_n.lhsIdx_val_of_single rfl i q
theorem rhs_first_0 (i : S16x64.Idx) (q : dot_S16x512_S512x64_S16x64_1_0_0_1_n_n.contr.Idx) :
    (dot_S16x512_S512x64_S16x64_1_0_0_1_n_n.rhsIdx i q 0).val = (q ⟨0, by decide⟩).val :=
  dot_S16x512_S512x64_S16x64_1_0_0_1_n_n.rhsIdx_val_of_single rfl i q
theorem rhs_first_1 (i : S16x64.Idx) (q : dot_S16x512_S512x64_S16x64_1_0_0_1_n_n.contr.Idx) :
    (dot_S16x512_S512x64_S16x64_1_0_0_1_n_n.rhsIdx i q 1).val = (i 1).val := by
  unfold DotDims.rhsIdx
  rw [dif_neg (show ¬(1 : Fin S512x64.rank) ∈ dot_S16x512_S512x64_S16x64_1_0_0_1_n_n.rhsBatch by decide),
    dif_pos (show (1 : Fin S512x64.rank) ∈ dot_S16x512_S512x64_S16x64_1_0_0_1_n_n.rhsNonContracting by decide)]
  rfl

/-- The first product into a zero accumulator, at (b, r): the sum over the 512 channels. -/
theorem first_product_apply (l : FVec Ideal S16x512 .f32) (w : FVec Ideal S512x64 .f32) (b : Fin 16) (r : Fin 64) :
    matmul dot_S16x512_S512x64_S16x64_1_0_0_1_n_n none l w (constant (F := Ideal) S16x64 .f32 0x00000000#32) (ix2 b r)
      = ∑ k : Fin 512, l (ix2 b k) * w (ix2 k r) := by
  simp only [matmul]
  rw [Ideal.matmul_constant_zero_apply, ← Equiv.sum_comp (contrEquiv1 dot_S16x512_S512x64_S16x64_1_0_0_1_n_n 512 rfl rfl).symm]
  refine Finset.sum_congr rfl fun k _ => ?_
  have hk := contrEquiv1_symm_val dot_S16x512_S512x64_S16x64_1_0_0_1_n_n 512 rfl rfl k
  have el : dot_S16x512_S512x64_S16x64_1_0_0_1_n_n.lhsIdx (ix2 b r) ((contrEquiv1 dot_S16x512_S512x64_S16x64_1_0_0_1_n_n 512 rfl rfl).symm k) = ix2 b k :=
    funext fun a => Fin.ext (by
      match a with
      | ⟨0, _⟩ => exact lhs_first_0 _ _
      | ⟨1, _⟩ => exact (lhs_first_1 _ _).trans hk)
  have er : dot_S16x512_S512x64_S16x64_1_0_0_1_n_n.rhsIdx (ix2 b r) ((contrEquiv1 dot_S16x512_S512x64_S16x64_1_0_0_1_n_n 512 rfl rfl).symm k) = ix2 k r :=
    funext fun a => Fin.ext (by
      match a with
      | ⟨0, _⟩ => exact (rhs_first_0 _ _).trans hk
      | ⟨1, _⟩ => exact rhs_first_1 _ _)
  rw [el, er]

theorem lhs_second_0 (i : S16x512.Idx) (q : dot_S16x64_S64x512_S16x512_1_0_0_1_n_n.contr.Idx) :
    (dot_S16x64_S64x512_S16x512_1_0_0_1_n_n.lhsIdx i q 0).val = (i 0).val := by
  unfold DotDims.lhsIdx
  rw [dif_neg (show ¬(0 : Fin S16x64.rank) ∈ dot_S16x64_S64x512_S16x512_1_0_0_1_n_n.lhsBatch by decide),
    dif_pos (show (0 : Fin S16x64.rank) ∈ dot_S16x64_S64x512_S16x512_1_0_0_1_n_n.lhsNonContracting by decide)]
  rfl
theorem lhs_second_1 (i : S16x512.Idx) (q : dot_S16x64_S64x512_S16x512_1_0_0_1_n_n.contr.Idx) :
    (dot_S16x64_S64x512_S16x512_1_0_0_1_n_n.lhsIdx i q 1).val = (q ⟨0, by decide⟩).val :=
  dot_S16x64_S64x512_S16x512_1_0_0_1_n_n.lhsIdx_val_of_single rfl i q
theorem rhs_second_0 (i : S16x512.Idx) (q : dot_S16x64_S64x512_S16x512_1_0_0_1_n_n.contr.Idx) :
    (dot_S16x64_S64x512_S16x512_1_0_0_1_n_n.rhsIdx i q 0).val = (q ⟨0, by decide⟩).val :=
  dot_S16x64_S64x512_S16x512_1_0_0_1_n_n.rhsIdx_val_of_single rfl i q
theorem rhs_second_1 (i : S16x512.Idx) (q : dot_S16x64_S64x512_S16x512_1_0_0_1_n_n.contr.Idx) :
    (dot_S16x64_S64x512_S16x512_1_0_0_1_n_n.rhsIdx i q 1).val = (i 1).val := by
  unfold DotDims.rhsIdx
  rw [dif_neg (show ¬(1 : Fin S64x512.rank) ∈ dot_S16x64_S64x512_S16x512_1_0_0_1_n_n.rhsBatch by decide),
    dif_pos (show (1 : Fin S64x512.rank) ∈ dot_S16x64_S64x512_S16x512_1_0_0_1_n_n.rhsNonContracting by decide)]
  rfl

/-- The second product into a zero accumulator, at (b, c): the sum over the 64 hidden units. -/
theorem second_product_apply (l : FVec Ideal S16x64 .f32) (w : FVec Ideal S64x512 .f32) (b : Fin 16) (c : Fin 512) :
    matmul dot_S16x64_S64x512_S16x512_1_0_0_1_n_n none l w (constant (F := Ideal) S16x512 .f32 0x00000000#32) (ix2 b c)
      = ∑ r : Fin 64, l (ix2 b r) * w (ix2 r c) := by
  simp only [matmul]
  rw [Ideal.matmul_constant_zero_apply, ← Equiv.sum_comp (contrEquiv1 dot_S16x64_S64x512_S16x512_1_0_0_1_n_n 64 rfl rfl).symm]
  refine Finset.sum_congr rfl fun k _ => ?_
  have hk := contrEquiv1_symm_val dot_S16x64_S64x512_S16x512_1_0_0_1_n_n 64 rfl rfl k
  have el : dot_S16x64_S64x512_S16x512_1_0_0_1_n_n.lhsIdx (ix2 b c) ((contrEquiv1 dot_S16x64_S64x512_S16x512_1_0_0_1_n_n 64 rfl rfl).symm k) = ix2 b k :=
    funext fun a => Fin.ext (by
      match a with
      | ⟨0, _⟩ => exact lhs_second_0 _ _
      | ⟨1, _⟩ => exact (lhs_second_1 _ _).trans hk)
  have er : dot_S16x64_S64x512_S16x512_1_0_0_1_n_n.rhsIdx (ix2 b c) ((contrEquiv1 dot_S16x64_S64x512_S16x512_1_0_0_1_n_n 64 rfl rfl).symm k) = ix2 k c :=
    funext fun a => Fin.ext (by
      match a with
      | ⟨0, _⟩ => exact (rhs_second_0 _ _).trans hk
      | ⟨1, _⟩ => exact rhs_second_1 _ _)
  rw [el, er]

/-! ## The body's intermediate blocks -/

/-- The pooled block: the input summed over its 196 positions, times the literal. -/
def pooledBlk (x0 : FVec Ideal S196x16x512 .f32) : FVec Ideal S16x512 .f32 :=
  mulf (multiReduction .add [0] S16x512 x0 0x00000000#32 Facts₀.reduces_S196x16x512_S16x512 (.inl rfl) rfl)
    (broadcast S16x512 (Scalar.ofBits (F := Ideal) .f32 0x3BA72F05#32))

theorem pooledBlk_apply (x0 : FVec Ideal S196x16x512 .f32) (b : Fin 16) (k : Fin 512) :
    pooledBlk x0 (ix2 b k) = Cert.ChannelGate.pooled (fun k s => x0 (ix3 s b k)) k := by
  show multiReduction .add [0] S16x512 x0 0x00000000#32 Facts₀.reduces_S196x16x512_S16x512 (.inl rfl) rfl (ix2 b k) * _ = (∑ s : Fin 196, x0 (ix3 s b k)) * _
  congr 1
  refine (Ideal.multiReduction_add_single x0 0x00000000#32 Facts₀.reduces_S196x16x512_S16x512 (.inl rfl) rfl (ix2 b k)).trans ?_
  show ∑ s : Fin 196, _ = _
  refine Finset.sum_congr rfl fun s _ => congrArg x0 (funext fun a => Fin.ext ?_)
  match a with
  | ⟨0, _⟩ => rfl
  | ⟨1, _⟩ => rfl
  | ⟨2, _⟩ => rfl

/-- The hidden block: pooled block times the first weight, plus the bias row, floored. -/
def hiddenBlk (x0 : FVec Ideal S196x16x512 .f32) (x1 : FVec Ideal S512x64 .f32) (x2 : FVec Ideal S1x64 .f32) : FVec Ideal S16x64 .f32 :=
  maximumf (addf (matmul dot_S16x512_S512x64_S16x64_1_0_0_1_n_n none (pooledBlk x0) x1 (constant (F := Ideal) S16x64 .f32 0x00000000#32))
      (broadcastTo S16x64 x2 Facts₀.broadcasts_S1x64_S16x64))
    (broadcast S16x64 (Scalar.ofBits (F := Ideal) .f32 0x00000000#32))

theorem hiddenBlk_apply (x0 : FVec Ideal S196x16x512 .f32) (x1 : FVec Ideal S512x64 .f32) (x2 : FVec Ideal S1x64 .f32) (b : Fin 16) (r : Fin 64) :
    hiddenBlk x0 x1 x2 (ix2 b r)
      = Cert.ChannelGate.hidden (fun k s => x0 (ix3 s b k)) (fun r k => x1 (ix2 k r)) (fun r => x2 (ix2 (0 : Fin 1) r)) r := by
  show max (matmul dot_S16x512_S512x64_S16x64_1_0_0_1_n_n none (pooledBlk x0) x1 (constant (F := Ideal) S16x64 .f32 0x00000000#32) (ix2 b r)
      + broadcastTo S16x64 x2 Facts₀.broadcasts_S1x64_S16x64 (ix2 b r)) _ = max (_ + _) _
  rw [first_product_apply, broadcastTo_1b_ab_apply]
  simp only [pooledBlk_apply]
  rfl

/-- The gate block: hidden block times the second weight, plus the bias row, through the logistic. -/
def gateBlk (x0 : FVec Ideal S196x16x512 .f32) (x1 : FVec Ideal S512x64 .f32) (x2 : FVec Ideal S1x64 .f32)
    (x3 : FVec Ideal S64x512 .f32) (x4 : FVec Ideal S1x512 .f32) : FVec Ideal S16x512 .f32 :=
  logistic (addf (matmul dot_S16x64_S64x512_S16x512_1_0_0_1_n_n none (hiddenBlk x0 x1 x2) x3 (constant (F := Ideal) S16x512 .f32 0x00000000#32))
    (broadcastTo S16x512 x4 Facts₀.broadcasts_S1x512_S16x512))

theorem gateBlk_apply (x0 : FVec Ideal S196x16x512 .f32) (x1 : FVec Ideal S512x64 .f32) (x2 : FVec Ideal S1x64 .f32)
    (x3 : FVec Ideal S64x512 .f32) (x4 : FVec Ideal S1x512 .f32) (b : Fin 16) (c : Fin 512) :
    gateBlk x0 x1 x2 x3 x4 (ix2 b c)
      = Cert.ChannelGate.gate (fun k s => x0 (ix3 s b k)) (fun r k => x1 (ix2 k r)) (fun r => x2 (ix2 (0 : Fin 1) r))
          (fun c r => x3 (ix2 r c)) (fun c => x4 (ix2 (0 : Fin 1) c)) c := by
  show Ideal.logistic (matmul dot_S16x64_S64x512_S16x512_1_0_0_1_n_n none (hiddenBlk x0 x1 x2) x3 (constant (F := Ideal) S16x512 .f32 0x00000000#32) (ix2 b c)
      + broadcastTo S16x512 x4 Facts₀.broadcasts_S1x512_S16x512 (ix2 b c)) = Ideal.logistic (_ + _)
  rw [second_product_apply, broadcastTo_1b_ab_apply]
  simp only [hiddenBlk_apply]

/-! ## The stored value -/

/-- The body's one store is the input block times the gate block laid along the positions (the shape casts to the
    same shape are the identity). -/
theorem stored_eq (x0 : Vec Ideal S196x16x512 .f32) (x1 : Vec Ideal S512x64 .f32) (x2 : Vec Ideal S1x64 .f32)
    (x3 : Vec Ideal S64x512 .f32) (x4 : Vec Ideal S1x512 .f32) (x0' : Vec Ideal S196x16x512 .f32) :
    k0_pay1 (F := Ideal) x0 x1 x2 x3 x4 x0'
      = mulf (F := Ideal) (φ := .f32) x0' (broadcastTo S196x16x512 (shapeCast S1x16x512 (gateBlk x0 x1 x2 x3 x4) Facts₀.shapeCasts_S16x512_S1x16x512)
          Facts₀.broadcasts_S1x16x512_S196x16x512) := by
  unfold k0_pay1 gateBlk hiddenBlk pooledBlk
  simp only [shapeCast_self]

/-- The stored value at (s, b, c): sample `b`'s gated matrix at (c, s). -/
theorem stored_apply (x0 : Vec Ideal S196x16x512 .f32) (x1 : Vec Ideal S512x64 .f32) (x2 : Vec Ideal S1x64 .f32)
    (x3 : Vec Ideal S64x512 .f32) (x4 : Vec Ideal S1x512 .f32) (s : Fin 196) (b : Fin 16) (c : Fin 512) :
    k0_pay1 (F := Ideal) x0 x1 x2 x3 x4 x0 (ix3 s b c)
      = Cert.ChannelGate.scaled (fun k s => x0 (ix3 s b k)) (fun r k => x1 (ix2 k r)) (fun r => x2 (ix2 (0 : Fin 1) r))
          (fun c r => x3 (ix2 r c)) (fun c => x4 (ix2 (0 : Fin 1) c)) c s := by
  rw [stored_eq]
  show x0 (ix3 s b c) * broadcastTo S196x16x512 (shapeCast S1x16x512 (gateBlk x0 x1 x2 x3 x4) Facts₀.shapeCasts_S16x512_S1x16x512)
      Facts₀.broadcasts_S1x16x512_S196x16x512 (ix3 s b c) = x0 (ix3 s b c) * _
  congr 1
  refine (broadcastTo_apply _ Facts₀.broadcasts_S1x16x512_S196x16x512 (ix3 s b c) (ix3 (0 : Fin 1) b c) fun a => ?_).trans ?_
  · match a with
    | ⟨0, _⟩ => rfl
    | ⟨1, _⟩ => rfl
    | ⟨2, _⟩ => rfl
  · rw [shapeCast_ab_1ab_apply, gateBlk_apply]

end Cert.KernelIdeal.Hand

end
-- ==== Proof.KernelArray.lean ====
/-
  The array the idealized kernel's region leaves, as one function of the arrays it finds.

  Grid point `t` holds samples 16 t … 16 t + 15: its input and output blocks are columns 16 t … 16 t + 15 of the
  196 × 128 × 512 arrays (every position, every channel), and the four small operands are staged whole at every
  point. What a point writes back is therefore the restriction to its columns of ONE whole-array function — entry
  (s, b, c) is sample `b`'s gated matrix at (c, s) — and the eight blocks tile the array.
-/
import proofs.«108726_g2000300965261445_pallasbulk_831_5_alg».proof.Proof.Gen.KernelIdeal.Frame
import proofs.«108726_g2000300965261445_pallasbulk_831_5_alg».proof.Proof.KernelBody
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The region's result over whole arrays: `A1` the samples laid (position, sample, channel), `A2` and `A3` the
    two weights transposed, `A4` and `A5` the bias rows. -/
def gated (A1 : S196x128x512.Idx → EReal) (A2 : S512x64.Idx → EReal) (A4 : S1x64.Idx → EReal) (A3 : S64x512.Idx → EReal)
    (A5 : S1x512.Idx → EReal) : S196x128x512.Idx → EReal := fun i =>
  Cert.ChannelGate.scaled (fun k s => A1 (ix3 s (i 1) k)) (fun r k => A2 (ix2 k r)) (fun r => A4 (ix2 (0 : Fin 1) r))
    (fun c r => A3 (ix2 r c)) (fun c => A5 (ix2 (0 : Fin 1) c)) (i 2) (i 0)

/-- The printed index maps over the grid: the two big windows move along the sample axis with the point, the four
    small ones stay at block zero. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-! ## The input blocks, read off the arrays -/

/-- The sample block at point `t`: columns 16 t … 16 t + 15 of the array. -/
theorem samples_blk (c : Dev nD) (t : Fin cfg0.N) (y : S196x16x512.Idx) (i : S196x128x512.Idx)
    (h0 : (i 0).val = (y 0).val) (h1 : (i 1).val = 16 * t.val + (y 1).val) (h2 : (i 2).val = (y 2).val) :
    (iblk m c 0 t : Vec Ideal S196x16x512 .f32) y = (V m c main_v1 : S196x128x512.Idx → EReal) i := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 196 + 1 * (y 0).val = (i 0).val; rw [e0, h0]; omega
  | ⟨1, _⟩ => show win0_0.index t (1 : Fin 3) * 16 + 1 * (y 1).val = (i 1).val; rw [e1, h1]; omega
  | ⟨2, _⟩ => show win0_0.index t (2 : Fin 3) * 512 + 1 * (y 2).val = (i 2).val; rw [e2, h2]; omega

/-- The first weight's block is the whole array, at every point. -/
theorem weight1_blk (c : Dev nD) (t : Fin cfg0.N) (y : S512x64.Idx) :
    (iblk m c 1 t : Vec Ideal S512x64 .f32) y = (V m c main_v2 : S512x64.Idx → EReal) y := by
  obtain ⟨-, -, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 64 + 1 * (y 1).val = (y 1).val; rw [e1]; omega

/-- The first bias row's block is the whole row. -/
theorem bias1_blk (c : Dev nD) (t : Fin cfg0.N) (y : S1x64.Idx) :
    (iblk m c 2 t : Vec Ideal S1x64 .f32) y = (V m c main_v4 : S1x64.Idx → EReal) y := by
  obtain ⟨-, -, -, -, -, e0, e1, -⟩ := idx_facts t
  unfold iblk
  rw [View.read_apply]
  show V m c main_v4 _ = V m c main_v4 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second weight's block is the whole array. -/
theorem weight2_blk (c : Dev nD) (t : Fin cfg0.N) (y : S64x512.Idx) :
    (iblk m c 3 t : Vec Ideal S64x512 .f32) y = (V m c main_v3 : S64x512.Idx → EReal) y := by
  obtain ⟨-, -, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 512 + 1 * (y 1).val = (y 1).val; rw [e1]; omega

/-- The second bias row's block is the whole row. -/
theorem bias2_blk (c : Dev nD) (t : Fin cfg0.N) (y : S1x512.Idx) :
    (iblk m c 4 t : Vec Ideal S1x512 .f32) y = (V m c main_v5 : S1x512.Idx → EReal) y := by
  obtain ⟨-, -, -, -, -, -, -, -, -, e0, e1, -⟩ := idx_facts t
  unfold iblk
  rw [View.read_apply]
  show V m c main_v5 _ = V m c main_v5 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-! ## What a point writes back -/

/-- The body's stored value at a block entry is the whole-array function at the entry's place in the array. -/
theorem stored_at (c : Dev nD) (t : Fin cfg0.N) (y : S196x16x512.Idx) (i : S196x128x512.Idx)
    (h0 : (i 0).val = (y 0).val) (h1 : (i 1).val = 16 * t.val + (y 1).val) (h2 : (i 2).val = (y 2).val) :
    k0_pay1 (F := Ideal) (iblk m c 0 t) (iblk m c 1 t) (iblk m c 2 t) (iblk m c 3 t) (iblk m c 4 t) (iblk m c 0 t) y
      = gated (V m c main_v1) (V m c main_v2) (V m c main_v4) (V m c main_v3) (V m c main_v5) i := by
  obtain ⟨s, b, k, rfl⟩ : ∃ (s : Fin 196) (b : Fin 16) (k : Fin 512), y = ix3 s b k := ⟨y 0, y 1, y 2, eq_ix3 y⟩
  refine (stored_apply (iblk m c 0 t) (iblk m c 1 t) (iblk m c 2 t) (iblk m c 3 t) (iblk m c 4 t) s b k).trans ?_
  have hs : (i 0 : Fin 196) = s := Fin.ext h0
  have hk : (i 2 : Fin 512) = k := Fin.ext h2
  unfold gated
  rw [hs, hk]
  have e0 : (fun (k : Fin 512) (s : Fin 196) => (iblk m c 0 t : Vec Ideal S196x16x512 .f32) (ix3 s b k))
      = fun k s => (V m c main_v1 : S196x128x512.Idx → EReal) (ix3 s (i 1) k) :=
    funext fun k => funext fun s => samples_blk m c t _ _ rfl h1 rfl
  have e1 : (fun (r : Fin 64) (k : Fin 512) => (iblk m c 1 t : Vec Ideal S512x64 .f32) (ix2 k r))
      = fun r k => (V m c main_v2 : S512x64.Idx → EReal) (ix2 k r) :=
    funext fun r => funext fun k => weight1_blk m c t _
  have e2 : (fun (r : Fin 64) => (iblk m c 2 t : Vec Ideal S1x64 .f32) (ix2 (0 : Fin 1) r))
      = fun r => (V m c main_v4 : S1x64.Idx → EReal) (ix2 (0 : Fin 1) r) :=
    funext fun r => bias1_blk m c t _
  have e3 : (fun (c' : Fin 512) (r : Fin 64) => (iblk m c 3 t : Vec Ideal S64x512 .f32) (ix2 r c'))
      = fun c' r => (V m c main_v3 : S64x512.Idx → EReal) (ix2 r c') :=
    funext fun c' => funext fun r => weight2_blk m c t _
  have e4 : (fun (c' : Fin 512) => (iblk m c 4 t : Vec Ideal S1x512 .f32) (ix2 (0 : Fin 1) c'))
      = fun c' => (V m c main_v5 : S1x512.Idx → EReal) (ix2 (0 : Fin 1) c') :=
    funext fun c' => bias2_blk m c t _
  rw [e0, e1, e2, e3, e4]

/-- WHAT POINT `t` WRITES BACK is block `t` of the whole-array function of the arrays the region finds. -/
theorem flushed_eq (c : Dev nD) (t : Fin cfg0.N) :
    (dats m 0 c).flushed 5 t = ((cfg0.win 5).blk t).view.read (Elt Ideal)
      (gated (V m c main_v1) (V m c main_v2) (V m c main_v4) (V m c main_v3) (V m c main_v5)) := by
  show (cfg0.win 5).cut (grid0.coords t) ((dats m 0 c).after 5 t) = _
  rw [after0_5]
  unfold out0_5
  rw [View.canon_unit_zero hz3]
  simp only [View.ld_unit_zero (S := S196x16x512) hz3, View.ld_unit_zero (S := S512x64) hz2, View.ld_unit_zero (S := S1x64) hz2,
    View.ld_unit_zero (S := S64x512) hz2, View.ld_unit_zero (S := S1x512) hz2]
  obtain ⟨-, -, -, -, -, -, -, -, -, -, -, e0, e1, e2⟩ := idx_facts t
  funext y
  rw [View.read_apply]
  refine stored_at m c t y _ ?_ ?_ ?_
  · show win0_5.index t (0 : Fin 3) * 196 + 1 * (y 0).val = (y 0).val; rw [e0]; omega
  · show win0_5.index t (1 : Fin 3) * 16 + 1 * (y 1).val = 16 * t.val + (y 1).val; rw [e1]; omega
  · show win0_5.index t (2 : Fin 3) * 512 + 1 * (y 2).val = (y 2).val; rw [e2]; omega

/-! ## The blocks tile the array -/

/-- An index of the array is in point `t`'s block iff each coordinate is in the block's range on its axis. -/
theorem mem_blk (t : Fin cfg0.N) (i : S196x128x512.Idx) :
    i ∈ ((cfg0.win 5).blk t).view.set ↔ ∀ a : Fin 3, win0_5.index t a * S196x16x512.size a ≤ (i a).val
      ∧ (i a).val < win0_5.index t a * S196x16x512.size a + S196x16x512.size a := by
  show i ∈ ((View.whole main_v6).slice (win0_5.rect t)).set ↔ _
  rw [View.set_slice_whole, Rect.mem_set_unit]
  exact Iff.rfl

/-- Sample column `b` lies in point b / 16's block. -/
theorem cover (i : S196x128x512.Idx) :
    ∃ t : Fin cfg0.N, (cfg0.win 5).flush t = true ∧ i ∈ ((cfg0.win 5).blk t).view.set := by
  have hi0 : (i 0).val < 196 := (i 0).isLt
  have hi1 : (i 1).val < 128 := (i 1).isLt
  have hi2 : (i 2).val < 512 := (i 2).isLt
  have hN : cfg0.N = 8 := N_0
  refine ⟨⟨(i 1).val / 16, by rw [hN]; omega⟩, flush0_5 _, ?_⟩
  rw [mem_blk]
  obtain ⟨-, -, -, -, -, -, -, -, -, -, -, e0, e1, e2⟩ := idx_facts ⟨(i 1).val / 16, by rw [hN]; omega⟩
  intro a
  match a with
  | ⟨0, _⟩ =>
    show win0_5.index _ (0 : Fin 3) * 196 ≤ (i 0).val ∧ (i 0).val < win0_5.index _ (0 : Fin 3) * 196 + 196
    rw [e0]; omega
  | ⟨1, _⟩ =>
    show win0_5.index _ (1 : Fin 3) * 16 ≤ (i 1).val ∧ (i 1).val < win0_5.index _ (1 : Fin 3) * 16 + 16
    rw [e1]; show (i 1).val / 16 * 16 ≤ (i 1).val ∧ (i 1).val < (i 1).val / 16 * 16 + 16; omega
  | ⟨2, _⟩ =>
    show win0_5.index _ (2 : Fin 3) * 512 ≤ (i 2).val ∧ (i 2).val < win0_5.index _ (2 : Fin 3) * 512 + 512
    rw [e2]; omega

/-- THE ARRAY after the region: the whole-array function of the arrays the region found. -/
theorem final (c : Dev nD) : (dats m 0 c).arrAt 5 cfg0.N
    = gated (V m c main_v1) (V m c main_v2) (V m c main_v4) (V m c main_v3) (V m c main_v5) :=
  (dats m 0 c).arrAt_eq_of_cover 5 _ (fun t _ => flushed_eq m c t) cover

end Cert.KernelIdeal.Hand

end
-- ==== Proof.KernelValue.lean ====
/-
  The idealized kernel's run, read: its result is the gated samples.

  Before the region the host lays the samples out position-major — the 128 × 512 × 14 × 14 argument transposed to
  14 × 14 × 128 × 512 and its two position axes flattened row-major to 196, so that entry (s, b, k) of the region's
  input is the argument at (b, k, s / 14, s % 14) —, transposes both weights and makes each bias a one-row matrix.
  After the region it unflattens the 196 positions and transposes back: entry (b, c, h, w) of the result is the
  region's array at (14 h + w, b, c). Composed with what the region computes, that is the specification's `result`
  of the five arguments.
-/
import proofs.«108726_g2000300965261445_pallasbulk_831_5_alg».proof.Proof.Gen.KernelIdeal.Frame
import proofs.«108726_g2000300965261445_pallasbulk_831_5_alg».proof.Proof.KernelArray
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The host lines before the region -/

theorem samples_entry (c : Dev nD) : (V m c main_v1 : S196x128x512.Idx → EReal)
    = shapeCast S196x128x512 (transpose S14x14x128x512 [2, 3, 0, 1] (m ((c.tc : Thread nD τ).loc main_arg0))
        Facts₀.transposes_S128x512x14x14_S14x14x128x512_2_3_0_1) Facts₀.shapeCasts_S14x14x128x512_S196x128x512 := by
  show StableHlo.after hostOps0 (fun b => m (c, b)) (Proc.devRef .tc main_v1) = _
  after_results
  rfl

theorem weight1_entry (c : Dev nD) : (V m c main_v2 : S512x64.Idx → EReal)
    = transpose S512x64 [1, 0] (m ((c.tc : Thread nD τ).loc main_arg1)) Facts₀.transposes_S64x512_S512x64_1_0 := by
  show StableHlo.after hostOps0 (fun b => m (c, b)) (Proc.devRef .tc main_v2) = _
  after_results

theorem weight2_entry (c : Dev nD) : (V m c main_v3 : S64x512.Idx → EReal)
    = transpose S64x512 [1, 0] (m ((c.tc : Thread nD τ).loc main_arg3)) Facts₀.transposes_S512x64_S64x512_1_0 := by
  show StableHlo.after hostOps0 (fun b => m (c, b)) (Proc.devRef .tc main_v3) = _
  after_results

theorem bias1_entry (c : Dev nD) : (V m c main_v4 : S1x64.Idx → EReal)
    = shapeCast S1x64 (m ((c.tc : Thread nD τ).loc main_arg2)) Facts₀.shapeCasts_S64_S1x64 := by
  show StableHlo.after hostOps0 (fun b => m (c, b)) (Proc.devRef .tc main_v4) = _
  after_results
  rfl

theorem bias2_entry (c : Dev nD) : (V m c main_v5 : S1x512.Idx → EReal)
    = shapeCast S1x512 (m ((c.tc : Thread nD τ).loc main_arg4)) Facts₀.shapeCasts_S512_S1x512 := by
  show StableHlo.after hostOps0 (fun b => m (c, b)) (Proc.devRef .tc main_v5) = _
  after_results
  rfl

/-- Entry (s, b, k) of the region's input is the argument at (b, k, s / 14, s % 14). -/
theorem samples_apply (c : Dev nD) (s : Fin 196) (b : Fin 128) (k : Fin 512) :
    (V m c main_v1 : S196x128x512.Idx → EReal) (ix3 s b k)
      = (m ((c.tc : Thread nD τ).loc main_arg0) : S128x512x14x14.Idx → EReal)
          (ix4 b k ⟨s.val / 14, by have := s.isLt; omega⟩ ⟨s.val % 14, by omega⟩) := by
  rw [samples_entry]
  refine (shapeCast_apply _ Facts₀.shapeCasts_S14x14x128x512_S196x128x512 (ix3 s b k)
    (ix4 (⟨s.val / 14, by have := s.isLt; omega⟩ : Fin 14) (⟨s.val % 14, by omega⟩ : Fin 14) b k) ?_).trans ?_
  · rw [Shape.rowMajor_val_three, Shape.rowMajor_val_four]
    show ((s.val / 14 * 14 + s.val % 14) * 128 + b.val) * 512 + k.val = (s.val * 128 + b.val) * 512 + k.val
    have := Nat.div_add_mod' s.val 14
    rw [this]
  · refine transpose_apply _ _ Facts₀.transposes_S128x512x14x14_S14x14x128x512_2_3_0_1 _ _ fun a => ?_
    match a with
    | ⟨0, _⟩ => rfl
    | ⟨1, _⟩ => rfl
    | ⟨2, _⟩ => rfl
    | ⟨3, _⟩ => rfl

/-! ## The host lines after the region -/

theorem tail_eq (c : Dev nD) :
    (Pipeline.afterTail₀ cfgs (dats m) 0 (V0 m) [hostOps1] c main_v8 : S128x512x14x14.Idx → EReal)
      = transpose S128x512x14x14 [2, 3, 0, 1]
          (shapeCast S14x14x128x512 (gated (V m c main_v1) (V m c main_v2) (V m c main_v4) (V m c main_v3) (V m c main_v5))
            Facts₀.shapeCasts_S196x128x512_S14x14x128x512)
          Facts₀.transposes_S14x14x128x512_S128x512x14x14_2_3_0_1 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v6)
      = gated (V m c main_v1) (V m c main_v2) (V m c main_v4) (V m c main_v3) (V m c main_v5) :=
    (Pipeline.withArrays_arr spec0 launch0.win.arr_inj c _ _ 5).trans (final m c)
  rw [hw]
  rfl

/-! ## The result, entry by entry -/

theorem gated_apply (A1 : S196x128x512.Idx → EReal) (A2 : S512x64.Idx → EReal) (A4 : S1x64.Idx → EReal) (A3 : S64x512.Idx → EReal)
    (A5 : S1x512.Idx → EReal) (s : Fin 196) (b : Fin 128) (ch : Fin 512) :
    gated A1 A2 A4 A3 A5 (ix3 s b ch)
      = Cert.ChannelGate.scaled (fun k s => A1 (ix3 s b k)) (fun r k => A2 (ix2 k r)) (fun r => A4 (ix2 (0 : Fin 1) r))
          (fun c r => A3 (ix2 r c)) (fun c => A5 (ix2 (0 : Fin 1) c)) ch s := rfl

theorem result_apply (x : S128x512x14x14.Idx → EReal) (w1 : S64x512.Idx → EReal) (b1 : S64.Idx → EReal) (w2 : S512x64.Idx → EReal)
    (b2 : S512.Idx → EReal) (b : Fin 128) (ch : Fin 512) (h w : Fin 14) :
    Cert.ChannelGate.result x w1 b1 w2 b2 (ix4 b ch h w)
      = Cert.ChannelGate.scaled (fun k s => x (ix4 b k ⟨s.val / 14, by have := s.isLt; omega⟩ ⟨s.val % 14, by omega⟩))
          (fun r k => w1 (ix2 r k)) (fun r => b1 (ix1 r)) (fun c r => w2 (ix2 c r)) (fun c => b2 (ix1 c)) ch
          ⟨h.val * 14 + w.val, by have := h.isLt; have := w.isLt; omega⟩ := rfl

/-- What the host's last line leaves is the specification's result of the five arguments. -/
theorem result_eq (c : Dev nD) :
    (Pipeline.afterTail₀ cfgs (dats m) 0 (V0 m) [hostOps1] c main_v8 : S128x512x14x14.Idx → EReal)
      = Cert.ChannelGate.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (tail_eq m c).trans ?_
  funext i
  obtain ⟨b, ch, h, w, rfl⟩ : ∃ (b : Fin 128) (ch : Fin 512) (h w : Fin 14), i = ix4 b ch h w := ⟨i 0, i 1, i 2, i 3, eq_ix4 i⟩
  refine (transpose_apply _ _ Facts₀.transposes_S14x14x128x512_S128x512x14x14_2_3_0_1 (ix4 b ch h w) (ix4 h w b ch) fun a => ?_).trans ?_
  · match a with
    | ⟨0, _⟩ => rfl
    | ⟨1, _⟩ => rfl
    | ⟨2, _⟩ => rfl
    | ⟨3, _⟩ => rfl
  refine (shapeCast_apply _ Facts₀.shapeCasts_S196x128x512_S14x14x128x512 (ix4 h w b ch)
    (ix3 (⟨h.val * 14 + w.val, by have := h.isLt; have := w.isLt; omega⟩ : Fin 196) b ch) ?_).trans ?_
  · rw [Shape.rowMajor_val_three, Shape.rowMajor_val_four]
    rfl
  rw [gated_apply, result_apply]
  have e0 : (fun (k : Fin 512) (s : Fin 196) => (V m c main_v1 : S196x128x512.Idx → EReal) (ix3 s b k))
      = fun k s => (m ((c.tc : Thread nD τ).loc main_arg0) : S128x512x14x14.Idx → EReal)
          (ix4 b k ⟨s.val / 14, by have := s.isLt; omega⟩ ⟨s.val % 14, by omega⟩) :=
    funext fun k => funext fun s => samples_apply m c s b k
  have e1 : (fun (r : Fin 64) (k : Fin 512) => (V m c main_v2 : S512x64.Idx → EReal) (ix2 k r))
      = fun r k => (m ((c.tc : Thread nD τ).loc main_arg1) : S64x512.Idx → EReal) (ix2 r k) :=
    funext fun r => funext fun k => by rw [weight1_entry]; exact transpose_ix2_apply _ _ k r
  have e2 : (fun (r : Fin 64) => (V m c main_v4 : S1x64.Idx → EReal) (ix2 (0 : Fin 1) r))
      = fun r => (m ((c.tc : Thread nD τ).loc main_arg2) : S64.Idx → EReal) (ix1 r) :=
    funext fun r => by rw [bias1_entry]; exact shapeCast_a_1a_apply _ _ 0 r
  have e3 : (fun (c' : Fin 512) (r : Fin 64) => (V m c main_v3 : S64x512.Idx → EReal) (ix2 r c'))
      = fun c' r => (m ((c.tc : Thread nD τ).loc main_arg3) : S512x64.Idx → EReal) (ix2 c' r) :=
    funext fun c' => funext fun r => by rw [weight2_entry]; exact transpose_ix2_apply _ _ r c'
  have e4 : (fun (c' : Fin 512) => (V m c main_v5 : S1x512.Idx → EReal) (ix2 (0 : Fin 1) c'))
      = fun c' => (m ((c.tc : Thread nD τ).loc main_arg4) : S512.Idx → EReal) (ix1 c') :=
    funext fun c' => by rw [bias2_entry]; exact shapeCast_a_1a_apply _ _ 0 c'
  rw [e0, e1, e2, e3, e4]

/-! ## The run -/

/-- Every weakly fair execution of the idealized kernel ends with its result array at the specification's result
    of the five arguments, and the arguments as they were. -/
theorem run : θ_run (defs (F := Ideal)) (onTc (τ := τ) (main (F := Ideal))) ⟨m, fun _ => 0, ρ⟩ fun r => ∀ c : Dev nD,
      r.2.mem ((c.tc : Thread nD τ).loc main_v8)
        = Cert.ChannelGate.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.ReferenceLayout.lean ====
/-
  Columns and one-axis sums of a matrix, read at explicit coordinates.

  A vector of length a viewed as an a × 1 column; an a × 1 column spread over b columns; and the sum of an
  a × b matrix along each row and along each column, as a sum over the coordinates of the summed axis.
-/
import Idealize.ShloMosaic.PureOps.Ideal.Laws
import Idealize.ShloMosaic.Lib.ValueLayout

noncomputable section

open scoped BigOperators

namespace Cert.ReferenceIdeal.Hand

open Idealize.ShloMosaic Idealize.ShloMosaic.ValueIdx

section Columns
variable {α : Type}

/-- A length-`a` vector cast to an `a × 1` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Columns

section Sums

/-- The sum of an `a × b` matrix along its rows: at `i`, the sum over the columns `j` of the entry `(i, j)`. -/
theorem sumRows_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun c => Fin.ext (by
      match c with
      | ⟨0, _⟩ => rfl
      | ⟨1, _⟩ => rfl)))

/-- The sum of an `a × b` matrix along its columns: at `j`, the sum over the rows `i` of the entry `(i, j)`. -/
theorem sumCols_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (j : Fin b) :
    multiReduction .add [0] ⟨1, ![b]⟩ src acc h hφ hacc (ix1 j) = ∑ i : Fin a, src (ix2 i j) :=
  (Ideal.multiReduction_add_single src acc h hφ hacc (ix1 j)).trans
    (Finset.sum_congr rfl fun i _ => congrArg src (funext fun c => Fin.ext (by
      match c with
      | ⟨0, _⟩ => rfl
      | ⟨1, _⟩ => rfl)))

end Sums

end Cert.ReferenceIdeal.Hand

end
-- ==== Proof.ReferenceBody.lean ====
/-
  The stored block of the reference's body, entry by entry.

  For one sample the body forms, from the loaded blocks, the pooled channels (a 512 × 1 column), the hidden units
  (a 1 × 64 row), the gates (a 512 × 1 column), and stores the sample times its channel's gate. Each of these is
  read here at explicit coordinates and identified with the channel gate's `pooled`, `hidden`, `gate` and `scaled`.
  The first weight block is held transposed (its rows are the input channels), and both contractions multiply the
  weight on the left.
-/
import proofs.«108726_g2000300965261445_pallasbulk_831_5_alg».proof.Proof.Gen.ReferenceIdeal.Skeleton
import proofs.«108726_g2000300965261445_pallasbulk_831_5_alg».proof.Proof.ChannelGate
import proofs.«108726_g2000300965261445_pallasbulk_831_5_alg».proof.Proof.ReferenceLayout

noncomputable section

open scoped BigOperators

namespace Cert.ReferenceIdeal.Hand

open Cert.ReferenceIdeal Cert.ReferenceIdeal.Gen
open Idealize.ShloMosaic Idealize.ShloMosaic.ValueIdx

variable (x0 : Vec Ideal S1x512x196 .f32) (x1 : Vec Ideal S512x64 .f32) (x2 : Vec Ideal S1x64 .f32)
  (x3 : Vec Ideal S512x64 .f32) (x4 : Vec Ideal S512x1 .f32)

/-! ## The blocks the body forms -/

/-- The sample as a 512 × 196 matrix. -/
def sampleBlk : FVec Ideal S512x196 .f32 := shapeCast S512x196 x0 Facts₀.shapeCasts_S1x512x196_S512x196

/-- The sums of a 512 × 196 matrix along its rows. -/
def positionSums (v : FVec Ideal S512x196 .f32) : FVec Ideal S512 .f32 :=
  multiReduction (F := Ideal) .add [1] S512 v 0x00000000#32 Facts₀.reduces_S512x196_S512 (.inl rfl) rfl

/-- The sums of a 512 × 64 matrix down its columns. -/
def channelSums (v : FVec Ideal S512x64 .f32) : FVec Ideal S64 .f32 :=
  multiReduction (F := Ideal) .add [0] S64 v 0x00000000#32 Facts₀.reduces_S512x64_S64 (.inl rfl) rfl

/-- The sums of a 512 × 64 matrix along its rows. -/
def unitSums (v : FVec Ideal S512x64 .f32) : FVec Ideal S512 .f32 :=
  multiReduction (F := Ideal) .add [1] S512 v 0x00000000#32 Facts₀.reduces_S512x64_S512 (.inl rfl) rfl

/-- The pooled channels, as a column: each row's sum times the literal. -/
def pooledBlk : FVec Ideal S512x1 .f32 :=
  mulf (shapeCast S512x1 (positionSums (sampleBlk x0)) Facts₀.shapeCasts_S512_S512x1)
    (broadcast S512x1 (Scalar.ofBits (F := Ideal) .f32 0x3BA72F05#32))

/-- The hidden units, as a row: the transposed first weight times the pooled column, summed down each column, plus
    the bias, floored. -/
def hiddenBlk : FVec Ideal S1x64 .f32 :=
  maximumf (addf (shapeCast S1x64
        (channelSums
          (mulf (shapeCast S512x64 x1 Facts₀.shapeCasts_S512x64_S512x64)
            (broadcastTo S512x64 (pooledBlk x0) Facts₀.broadcasts_S512x1_S512x64)))
        Facts₀.shapeCasts_S64_S1x64)
      (shapeCast S1x64 x2 Facts₀.shapeCasts_S1x64_S1x64))
    (broadcast S1x64 (Scalar.ofBits (F := Ideal) .f32 0x00000000#32))

/-- The gates, as a column: the second weight times the hidden row, summed along each row, plus the bias, through
    the logistic. -/
def gateBlk : FVec Ideal S512x1 .f32 :=
  logistic (addf (shapeCast S512x1
        (unitSums (mulf x3 (broadcastTo S512x64 (hiddenBlk x0 x1 x2) Facts₀.broadcasts_S1x64_S512x64)))
        Facts₀.shapeCasts_S512_S512x1)
      (shapeCast S512x1 x4 Facts₀.shapeCasts_S512x1_S512x1))

/-- What the body stores is the sample times the gate column spread over the positions. -/
theorem stored_eq : k0_pay1 x0 x1 x2 x3 x4
    = shapeCast S1x512x196
        (mulf (sampleBlk x0) (broadcastTo S512x196 (gateBlk x0 x1 x2 x3 x4) Facts₀.broadcasts_S512x1_S512x196))
        Facts₀.shapeCasts_S512x196_S1x512x196 := rfl

/-! ## Each block at an entry -/

/-- Entry (c, s) of the sample matrix is entry (0, c, s) of the loaded block. -/
theorem sampleBlk_apply (c : Fin 512) (s : Fin 196) : sampleBlk x0 (ix2 c s) = x0 (ix3 (0 : Fin 1) c s) :=
  shapeCast_1ab_ab_apply x0 _ c s

/-- A row's sum is the sum of its 196 entries. -/
theorem positionSums_apply (v : FVec Ideal S512x196 .f32) (k : Fin 512) :
    positionSums v (ix1 k) = ∑ s : Fin 196, v (ix2 k s) :=
  sumRows_apply v _ _ _ _ k

/-- A column's sum is the sum of its 512 entries. -/
theorem channelSums_apply (v : FVec Ideal S512x64 .f32) (r : Fin 64) :
    channelSums v (ix1 r) = ∑ k : Fin 512, v (ix2 k r) :=
  sumCols_apply v _ _ _ _ r

/-- A row's sum is the sum of its 64 entries. -/
theorem unitSums_apply (v : FVec Ideal S512x64 .f32) (c : Fin 512) :
    unitSums v (ix1 c) = ∑ r : Fin 64, v (ix2 c r) :=
  sumRows_apply v _ _ _ _ c

/-- Row `k` of the pooled column is channel `k`'s pooled value. -/
theorem pooledBlk_apply (k : Fin 512) (u : Fin 1) :
    pooledBlk x0 (ix2 k u) = Cert.ChannelGate.pooled (fun k s => x0 (ix3 (0 : Fin 1) k s)) k := by
  unfold pooledBlk Cert.ChannelGate.pooled
  simp only [mulf_apply, broadcast_apply, shapeCast_a_a1_apply, positionSums_apply, sampleBlk_apply]
  rfl

/-- Column `r` of the hidden row is hidden unit `r`. -/
theorem hiddenBlk_apply (r : Fin 64) :
    hiddenBlk x0 x1 x2 (ix2 (0 : Fin 1) r)
      = Cert.ChannelGate.hidden (fun k s => x0 (ix3 (0 : Fin 1) k s)) (fun r k => x1 (ix2 k r))
          (fun r => x2 (ix2 (0 : Fin 1) r)) r := by
  rw [← Cert.ChannelGate.hidden_swap]
  unfold hiddenBlk
  simp only [maximumf_apply, addf_apply, broadcast_apply, shapeCast_a_1a_apply, channelSums_apply, mulf_apply,
    shapeCast_self, broadcastTo_a1_ab_apply, pooledBlk_apply]
  rfl

/-- Row `c` of the gate column is channel `c`'s gate. -/
theorem gateBlk_apply (c : Fin 512) :
    gateBlk x0 x1 x2 x3 x4 (ix2 c (0 : Fin 1))
      = Cert.ChannelGate.gate (fun k s => x0 (ix3 (0 : Fin 1) k s)) (fun r k => x1 (ix2 k r))
          (fun r => x2 (ix2 (0 : Fin 1) r)) (fun c r => x3 (ix2 c r)) (fun c => x4 (ix2 c (0 : Fin 1))) c := by
  unfold Cert.ChannelGate.gate
  show Ideal.logistic _ = Ideal.logistic _
  refine congrArg Ideal.logistic ?_
  simp only [addf_apply, shapeCast_a_a1_apply, unitSums_apply, mulf_apply, shapeCast_self, broadcastTo_1b_ab_apply,
    hiddenBlk_apply]
  exact congrArg (· + x4 (ix2 c (0 : Fin 1))) (Finset.sum_congr rfl fun r _ => mul_comm _ _)

/-- THE STORED BLOCK at (0, c, s): the sample's entry (c, s) times channel `c`'s gate. -/
theorem stored_apply (c : Fin 512) (s : Fin 196) :
    k0_pay1 x0 x1 x2 x3 x4 (ix3 (0 : Fin 1) c s)
      = Cert.ChannelGate.scaled (fun k s => x0 (ix3 (0 : Fin 1) k s)) (fun r k => x1 (ix2 k r))
          (fun r => x2 (ix2 (0 : Fin 1) r)) (fun c r => x3 (ix2 c r)) (fun c => x4 (ix2 c (0 : Fin 1))) c s := by
  rw [stored_eq, shapeCast_ab_1ab_apply]
  unfold Cert.ChannelGate.scaled
  simp only [mulf_apply, sampleBlk_apply, broadcastTo_a1_ab_apply, gateBlk_apply]

end Cert.ReferenceIdeal.Hand

end
-- ==== Proof.ReferenceArray.lean ====
/-
  The array the region leaves: every sample gated.

  The region runs once per sample. At point `t` it reads sample `t` (rows `t` of the 128 × 512 × 196 array) and the
  four parameter arrays whole, and writes the gated sample back to rows `t` of the result. So what each point writes
  is its block of ONE function of the five arrays the region reads, and the 128 blocks cover the result.
-/
import proofs.«108726_g2000300965261445_pallasbulk_831_5_alg».proof.Proof.Gen.ReferenceIdeal.Frame
import proofs.«108726_g2000300965261445_pallasbulk_831_5_alg».proof.Proof.ReferenceBody
import Idealize.ShloMosaic.Lib.Pipeline.Value

noncomputable section

open scoped BigOperators

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

/-! ## The whole-array function -/

/-- Every sample gated, as one function of the five arrays the region reads: entry (b, c, s) is sample `b`'s
    entry (c, s) times channel `c`'s gate for that sample. The first weight is read transposed. -/
def gated (A0 : S128x512x196.Idx → EReal) (A1 : S512x64.Idx → EReal) (A2 : S1x64.Idx → EReal)
    (A3 : S512x64.Idx → EReal) (A4 : S512x1.Idx → EReal) : S128x512x196.Idx → EReal := fun i =>
  Cert.ChannelGate.scaled (fun k s => A0 (ix3 (i 0) k s)) (fun r k => A1 (ix2 k r)) (fun r => A2 (ix2 (0 : Fin 1) r))
    (fun c r => A3 (ix2 c r)) (fun c => A4 (ix2 c (0 : Fin 1))) (i 1) (i 2)

/-- The stored block of a point whose sample block is rows `b` of `A0`: at (0, c, s) it is `gated` at (b, c, s). -/
theorem stored_rows (x0 : Vec Ideal S1x512x196 .f32) (x1 : Vec Ideal S512x64 .f32) (x2 : Vec Ideal S1x64 .f32)
    (x3 : Vec Ideal S512x64 .f32) (x4 : Vec Ideal S512x1 .f32) (A0 : S128x512x196.Idx → EReal) (b : Fin 128)
    (h0 : ∀ (k : Fin 512) (s : Fin 196), x0 (ix3 (0 : Fin 1) k s) = A0 (ix3 b k s)) (j : S1x512x196.Idx) :
    k0_pay1 x0 x1 x2 x3 x4 j = gated A0 x1 x2 x3 x4 (ix3 b (j 1) (j 2)) := by
  obtain ⟨c, s, rfl⟩ : ∃ (c : Fin 512) (s : Fin 196), j = ix3 (0 : Fin 1) c s :=
    ⟨j 1, j 2, (eq_ix3 j).trans (congrArg (fun u : Fin 1 => ix3 u (j 1) (j 2))
      (Fin.ext (by have h : (j 0).val < 1 := (j 0).isLt; show (j 0).val = 0; omega)))⟩
  have e : (fun (k : Fin 512) (s : Fin 196) => x0 (ix3 (0 : Fin 1) k s)) = fun k s => A0 (ix3 b k s) :=
    funext fun k => funext fun s => h0 k s
  rw [stored_apply, e]
  rfl

/-! ## The blocks the points read -/

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the sample window and the result window sit at block `t` of the batch axis, every
    other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The sample window's block at point `t` is rows `t` of the sample array. -/
theorem sample_blk (c : Dev nD) (t : Fin cfg0.N) (b : Fin 128) (hb : b.val = t.val) (k : Fin 512) (s : Fin 196) :
    (iblk m c 0 t : Vec Ideal S1x512x196 .f32) (ix3 (0 : Fin 1) k s)
      = (V m c main_v0 : S128x512x196.Idx → EReal) (ix3 b k s) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 512 + 1 * k.val = k.val; rw [e1]; omega
  | ⟨2, _⟩ => show win0_0.index t (2 : Fin 3) * 196 + 1 * s.val = s.val; rw [e2]; omega

/-- The first weight's window holds the whole transposed weight at every point. -/
theorem weight1_blk (c : Dev nD) (t : Fin cfg0.N) : (iblk m c 1 t : Vec Ideal S512x64 .f32) = V m c main_v1 := by
  obtain ⟨-, -, -, e0, e1, -⟩ := idx_facts t
  unfold iblk
  funext y
  rw [View.read_apply]
  show V m c main_v1 _ = V m c main_v1 y
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 64 + 1 * (y 1).val = (y 1).val; rw [e1]; omega

/-- The first bias's window holds the whole bias row at every point. -/
theorem bias1_blk (c : Dev nD) (t : Fin cfg0.N) : (iblk m c 2 t : Vec Ideal S1x64 .f32) = V m c main_v2 := by
  obtain ⟨-, -, -, -, -, e0, e1, -⟩ := idx_facts t
  unfold iblk
  funext y
  rw [View.read_apply]
  show V m c main_v2 _ = V m c main_v2 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second weight's window holds the whole weight at every point. -/
theorem weight2_blk (c : Dev nD) (t : Fin cfg0.N) : (iblk m c 3 t : Vec Ideal S512x64 .f32) = V m c main_arg3 := by
  obtain ⟨-, -, -, -, -, -, -, e0, e1, -⟩ := idx_facts t
  unfold iblk
  funext y
  rw [View.read_apply]
  show V m c main_arg3 _ = V m c main_arg3 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 64 + 1 * (y 1).val = (y 1).val; rw [e1]; omega

/-- The second bias's window holds the whole bias column at every point. -/
theorem bias2_blk (c : Dev nD) (t : Fin cfg0.N) : (iblk m c 4 t : Vec Ideal S512x1 .f32) = V m c main_v3 := by
  obtain ⟨-, -, -, -, -, -, -, -, -, e0, e1, -⟩ := idx_facts t
  unfold iblk
  funext y
  rw [View.read_apply]
  show V m c main_v3 _ = V m c main_v3 y
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 1 + 1 * (y 1).val = (y 1).val; rw [e1]; omega

/-! ## What a point writes back, and the array after the run -/

/-- The arrays the region reads, gated: what the result array is to hold. -/
abbrev gatedV (c : Dev nD) : S128x512x196.Idx → EReal :=
  gated (V m c main_v0) (V m c main_v1) (V m c main_v2) (V m c main_arg3) (V m c main_v3)

/-- WHAT POINT `t` WRITES BACK is block `t` of the gated samples. -/
theorem flushed_eq (c : Dev nD) (t : Fin cfg0.N) :
    (dats m 0 c).flushed 5 t = ((cfg0.win 5).blk t).view.read (Elt Ideal) (gatedV m c) := by
  have ht : t.val < 128 := Nat.lt_of_lt_of_eq t.isLt N_0
  obtain ⟨-, -, -, -, -, -, -, -, -, -, -, e0, e1, e2⟩ := idx_facts t
  show (cfg0.win 5).cut (grid0.coords t) ((dats m 0 c).after 5 t) = _
  rw [after0_5]
  unfold out0_5
  rw [View.canon_unit_zero hz3]
  simp only [View.ld_unit_zero (S := S1x512x196) hz3, View.ld_unit_zero (S := S512x64) hz2,
    View.ld_unit_zero (S := S1x64) hz2, View.ld_unit_zero (S := S512x1) hz2]
  rw [weight1_blk m c t, bias1_blk m c t, weight2_blk m c t, bias2_blk m c t]
  funext j
  refine (stored_rows (iblk m c 0 t) (V m c main_v1) (V m c main_v2) (V m c main_arg3) (V m c main_v3)
    (V m c main_v0) ⟨t.val, ht⟩ (fun k s => sample_blk m c t ⟨t.val, ht⟩ rfl k s) _).trans ?_
  rw [View.read_apply]
  refine congrArg (gatedV m c) ?_
  funext a
  apply Fin.ext
  match a with
  | ⟨0, _⟩ =>
    show t.val = win0_5.index t (0 : Fin 3) * 1 + 1 * (j 0).val
    have h0 : (j 0).val < 1 := (j 0).isLt
    rw [e0]; omega
  | ⟨1, _⟩ => show (j 1).val = win0_5.index t (1 : Fin 3) * 512 + 1 * (j 1).val; rw [e1]; omega
  | ⟨2, _⟩ => show (j 2).val = win0_5.index t (2 : Fin 3) * 196 + 1 * (j 2).val; rw [e2]; omega

/-- An index of the result array is in point `t`'s block iff each coordinate is in the block's range on its axis. -/
theorem mem_blk (t : Fin cfg0.N) (i : S128x512x196.Idx) :
    i ∈ ((cfg0.win 5).blk t).view.set ↔ ∀ a : Fin 3, win0_5.index t a * S1x512x196.size a ≤ (i a).val
      ∧ (i a).val < win0_5.index t a * S1x512x196.size a + S1x512x196.size a := by
  show i ∈ ((View.whole main_v4).slice (win0_5.rect t)).set ↔ _
  rw [View.set_slice_whole, Rect.mem_set_unit]
  exact Iff.rfl

/-- Sample `b` of the result is covered by point `b`. -/
theorem cover (i : S128x512x196.Idx) :
    ∃ t : Fin cfg0.N, (cfg0.win 5).flush t = true ∧ i ∈ ((cfg0.win 5).blk t).view.set := by
  have h0 : (i 0).val < 128 := (i 0).isLt
  have h1 : (i 1).val < 512 := (i 1).isLt
  have h2 : (i 2).val < 196 := (i 2).isLt
  have hN : cfg0.N = 128 := N_0
  have hlt : (i 0).val < cfg0.N := Nat.lt_of_lt_of_eq h0 hN.symm
  refine ⟨⟨(i 0).val, hlt⟩, flush0_5 _, ?_⟩
  obtain ⟨-, -, -, -, -, -, -, -, -, -, -, e0, e1, e2⟩ := idx_facts ⟨(i 0).val, hlt⟩
  rw [mem_blk]
  intro a
  match a with
  | ⟨0, _⟩ =>
    show win0_5.index _ (0 : Fin 3) * 1 ≤ (i 0).val ∧ (i 0).val < win0_5.index _ (0 : Fin 3) * 1 + 1
    rw [e0]; show (i 0).val * 1 ≤ (i 0).val ∧ (i 0).val < (i 0).val * 1 + 1; omega
  | ⟨1, _⟩ =>
    show win0_5.index _ (1 : Fin 3) * 512 ≤ (i 1).val ∧ (i 1).val < win0_5.index _ (1 : Fin 3) * 512 + 512
    rw [e1]; omega
  | ⟨2, _⟩ =>
    show win0_5.index _ (2 : Fin 3) * 196 ≤ (i 2).val ∧ (i 2).val < win0_5.index _ (2 : Fin 3) * 196 + 196
    rw [e2]; omega

/-- THE RESULT ARRAY after the region: every sample gated. -/
theorem final (c : Dev nD) : (dats m 0 c).arrAt 5 cfg0.N = gatedV m c :=
  (dats m 0 c).arrAt_eq_of_cover 5 (gatedV m c) (fun t _ => flushed_eq m c t) cover

end Cert.ReferenceIdeal.Hand

end
-- ==== Proof.ReferenceHost.lean ====
/-
  The host lines around the region.

  Before the region the sample array is the argument with its two position axes flattened, the first weight is the
  argument transposed, and the two biases are the arguments viewed as a row and as a column; the second weight is the
  argument itself. After the region the result is the region's array with the position axis split back in two.
-/
import proofs.«108726_g2000300965261445_pallasbulk_831_5_alg».proof.Proof.ReferenceArray
import Idealize.ShloMosaic.Lib.Tactic

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Tactic
open Idealize.ShloMosaic.Pipeline (Dat)

variable (m : (ℓ : Loc nD τ sig) → Buf (Elt Ideal) ℓ)

/-! ## The arrays the region finds -/

/-- The sample array: the first argument with its two position axes flattened. -/
theorem sample_arr (c : Dev nD) : (V m c main_v0 : S128x512x196.Idx → EReal)
    = shapeCast S128x512x196 (m ((c : Thread nD τ).loc main_arg0) : S128x512x14x14.Idx → EReal)
        Facts₀.shapeCasts_S128x512x14x14_S128x512x196 := by
  show StableHlo.after hostOps0 (fun b => m (c, b)) (Proc.devRef .tc main_v0) = _
  after_results
  rfl

/-- The first weight as the region reads it: the second argument transposed. -/
theorem weight1_arr (c : Dev nD) : (V m c main_v1 : S512x64.Idx → EReal)
    = transpose S512x64 [1, 0] (m ((c : Thread nD τ).loc main_arg1) : S64x512.Idx → EReal)
        Facts₀.transposes_S64x512_S512x64_1_0 := by
  show StableHlo.after hostOps0 (fun b => m (c, b)) (Proc.devRef .tc main_v1) = _
  after_results

/-- The first bias as the region reads it: the third argument as a row. -/
theorem bias1_arr (c : Dev nD) : (V m c main_v2 : S1x64.Idx → EReal)
    = shapeCast S1x64 (m ((c : Thread nD τ).loc main_arg2) : S64.Idx → EReal) Facts₀.shapeCasts_S64_S1x64 := by
  show StableHlo.after hostOps0 (fun b => m (c, b)) (Proc.devRef .tc main_v2) = _
  after_results
  rfl

/-- The second bias as the region reads it: the fifth argument as a column. -/
theorem bias2_arr (c : Dev nD) : (V m c main_v3 : S512x1.Idx → EReal)
    = shapeCast S512x1 (m ((c : Thread nD τ).loc main_arg4) : S512.Idx → EReal) Facts₀.shapeCasts_S512_S512x1 := by
  show StableHlo.after hostOps0 (fun b => m (c, b)) (Proc.devRef .tc main_v3) = _
  after_results
  rfl

/-! ## The line after the region -/

/-- The result buffer after the last line: the gated samples with the position axis split back into 14 × 14. -/
theorem result_buf (c : Dev nD) :
    (Pipeline.afterTail₀ cfgs (dats m) 0 (V0 m) [hostOps1] c main_v5 : S128x512x14x14.Idx → EReal)
      = shapeCast S128x512x14x14 (gatedV m c) Facts₀.shapeCasts_S128x512x196_S128x512x14x14 := by
  unfold Pipeline.afterTail₀
  show StableHlo.after hostOps1 _ (Proc.devRef .tc main_v5) = _
  after_results
  have e : Pipeline.withArrays spec0 c (V0 m c) (fun w => (dats m 0 c).arrAt w cfg0.N)
      (Proc.devRef .tc (Pipeline.arrRef spec0 5)) = gatedV m c :=
    (Pipeline.withArrays_arr spec0 launch0.win.arr_inj c _ _ 5).trans (final m c)
  exact congrArg (fun A : S128x512x196.Idx → EReal =>
    shapeCast S128x512x14x14 A Facts₀.shapeCasts_S128x512x196_S128x512x14x14) e

end Cert.ReferenceIdeal.Hand

end
-- ==== Proof.ReferenceValue.lean ====
/-
  The reference's run, read: its result is the channel gate's `result` of the five arguments.

  The array the region leaves is every sample gated, over the arrays the host lines prepared; the last line splits the
  position axis back into 14 × 14. Read entry by entry: position (h, w) is column 14 h + w of the sample matrix, whose
  column s is position (s / 14, s % 14); the transposed weight at (k, r) is the weight at (r, k); the bias row and the
  bias column are the bias vectors.
-/
import proofs.«108726_g2000300965261445_pallasbulk_831_5_alg».proof.Proof.ReferenceHost

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds, entry by entry -/

/-- Entry (b, k, s) of the sample array is the argument at (b, k, s / 14, s % 14). -/
theorem sample_arr_apply (c : Dev nD) (b : Fin 128) (k : Fin 512) (s : Fin 196) :
    (V m c main_v0 : S128x512x196.Idx → EReal) (ix3 b k s)
      = (m ((c : Thread nD τ).loc main_arg0) : S128x512x14x14.Idx → EReal)
          (ix4 b k ⟨s.val / 14, by have := s.isLt; omega⟩ ⟨s.val % 14, by omega⟩) := by
  have hs := s.isLt
  rw [sample_arr]
  refine shapeCast_apply _ _ _ _ ?_
  show (S128x512x14x14.rowMajor (ix4 b k ⟨s.val / 14, by omega⟩ ⟨s.val % 14, by omega⟩)).val
    = (S128x512x196.rowMajor (ix3 b k s)).val
  rw [Shape.rowMajor_val_four, Shape.rowMajor_val_three]
  show ((b.val * 512 + k.val) * 14 + s.val / 14) * 14 + s.val % 14 = (b.val * 512 + k.val) * 196 + s.val
  omega

/-- Entry (k, r) of the transposed weight is the weight at (r, k). -/
theorem weight1_arr_apply (c : Dev nD) (k : Fin 512) (r : Fin 64) :
    (V m c main_v1 : S512x64.Idx → EReal) (ix2 k r)
      = (m ((c : Thread nD τ).loc main_arg1) : S64x512.Idx → EReal) (ix2 r k) := by
  rw [weight1_arr]
  exact transpose_ix2_apply _ _ k r

/-- Entry (0, r) of the bias row is the bias at r. -/
theorem bias1_arr_apply (c : Dev nD) (r : Fin 64) :
    (V m c main_v2 : S1x64.Idx → EReal) (ix2 (0 : Fin 1) r)
      = (m ((c : Thread nD τ).loc main_arg2) : S64.Idx → EReal) (ix1 r) := by
  rw [bias1_arr]
  exact shapeCast_a_1a_apply _ _ (0 : Fin 1) r

/-- Entry (ch, 0) of the bias column is the bias at ch. -/
theorem bias2_arr_apply (c : Dev nD) (ch : Fin 512) :
    (V m c main_v3 : S512x1.Idx → EReal) (ix2 ch (0 : Fin 1))
      = (m ((c : Thread nD τ).loc main_arg4) : S512.Idx → EReal) (ix1 ch) := by
  rw [bias2_arr]
  exact shapeCast_a_a1_apply _ _ ch (0 : Fin 1)

/-! ## The gated samples over the arguments -/

/-- Entry (b, ch, s) of the gated samples: sample `b` of the first argument, read as a 512 × 196 matrix, gated with the
    four parameter arguments, at channel `ch` and column `s`. -/
theorem gatedV_apply (c : Dev nD) (b : Fin 128) (ch : Fin 512) (s : Fin 196) :
    gatedV m c (ix3 b ch s)
      = Cert.ChannelGate.scaled
          (fun k s' => (m ((c : Thread nD τ).loc main_arg0) : S128x512x14x14.Idx → EReal)
            (ix4 b k ⟨s'.val / 14, by have := s'.isLt; omega⟩ ⟨s'.val % 14, by omega⟩))
          (fun r k => (m ((c : Thread nD τ).loc main_arg1) : S64x512.Idx → EReal) (ix2 r k))
          (fun r => (m ((c : Thread nD τ).loc main_arg2) : S64.Idx → EReal) (ix1 r))
          (fun ch' r => (m ((c : Thread nD τ).loc main_arg3) : S512x64.Idx → EReal) (ix2 ch' r))
          (fun ch' => (m ((c : Thread nD τ).loc main_arg4) : S512.Idx → EReal) (ix1 ch')) ch s := by
  have e0 : (fun (k : Fin 512) (s' : Fin 196) => (V m c main_v0 : S128x512x196.Idx → EReal) (ix3 b k s'))
      = fun k s' => (m ((c : Thread nD τ).loc main_arg0) : S128x512x14x14.Idx → EReal)
          (ix4 b k ⟨s'.val / 14, by have := s'.isLt; omega⟩ ⟨s'.val % 14, by omega⟩) :=
    funext fun k => funext fun s' => sample_arr_apply m c b k s'
  have e1 : (fun (r : Fin 64) (k : Fin 512) => (V m c main_v1 : S512x64.Idx → EReal) (ix2 k r))
      = fun r k => (m ((c : Thread nD τ).loc main_arg1) : S64x512.Idx → EReal) (ix2 r k) :=
    funext fun r => funext fun k => weight1_arr_apply m c k r
  have e2 : (fun (r : Fin 64) => (V m c main_v2 : S1x64.Idx → EReal) (ix2 (0 : Fin 1) r))
      = fun r => (m ((c : Thread nD τ).loc main_arg2) : S64.Idx → EReal) (ix1 r) :=
    funext fun r => bias1_arr_apply m c r
  have e3 : (V m c main_arg3 : S512x64.Idx → EReal) = m ((c : Thread nD τ).loc main_arg3) := V_main_arg3 m c
  have e4 : (fun (ch' : Fin 512) => (V m c main_v3 : S512x1.Idx → EReal) (ix2 ch' (0 : Fin 1)))
      = fun ch' => (m ((c : Thread nD τ).loc main_arg4) : S512.Idx → EReal) (ix1 ch') :=
    funext fun ch' => bias2_arr_apply m c ch'
  show Cert.ChannelGate.scaled (fun (k : Fin 512) (s' : Fin 196) => (V m c main_v0 : S128x512x196.Idx → EReal) (ix3 b k s'))
      (fun (r : Fin 64) (k : Fin 512) => (V m c main_v1 : S512x64.Idx → EReal) (ix2 k r))
      (fun (r : Fin 64) => (V m c main_v2 : S1x64.Idx → EReal) (ix2 (0 : Fin 1) r))
      (fun (ch' : Fin 512) (r : Fin 64) => (V m c main_arg3 : S512x64.Idx → EReal) (ix2 ch' r))
      (fun (ch' : Fin 512) => (V m c main_v3 : S512x1.Idx → EReal) (ix2 ch' (0 : Fin 1))) ch s = _
  rw [e0, e1, e2, e3, e4]

/-- THE RESULT BUFFER after the run is the channel gate's result of the five arguments. -/
theorem result_eq (c : Dev nD) :
    (Pipeline.afterTail₀ cfgs (dats m) 0 (V0 m) [hostOps1] c main_v5 : S128x512x14x14.Idx → EReal)
      = Cert.ChannelGate.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [result_buf]
  funext i
  obtain ⟨b, ch, h, w, rfl⟩ : ∃ (b : Fin 128) (ch : Fin 512) (h : Fin 14) (w : Fin 14), i = ix4 b ch h w :=
    ⟨i 0, i 1, i 2, i 3, eq_ix4 i⟩
  have hh := h.isLt
  have hw := w.isLt
  refine (shapeCast_apply (gatedV m c) _ (ix4 b ch h w) (ix3 b ch ⟨h.val * 14 + w.val, by omega⟩) ?_).trans ?_
  · rw [Shape.rowMajor_val_three, Shape.rowMajor_val_four]
    show (b.val * 512 + ch.val) * 196 + (h.val * 14 + w.val) = ((b.val * 512 + ch.val) * 14 + h.val) * 14 + w.val
    omega
  · rw [gatedV_apply]
    rfl

/-! ## The run -/

/-- Every weakly fair execution of the idealized reference ends with its result array at the channel gate's result
    of the five arguments, and the arguments as they were. -/
theorem run : θ_run (defs (F := Ideal)) (onTc (τ := τ) (main (F := Ideal))) ⟨m, fun _ => 0, ρ⟩ fun r => ∀ c : Dev nD,
      r.2.mem ((c.tc : Thread nD τ).loc main_v5)
        = Cert.ChannelGate.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.Hand

end
-- ==== Proof.lean ====
/-
  A squeeze-and-excitation channel gate, two ways.

  Both programs take 128 samples of 512 channels on a 14 × 14 grid, two small weight matrices and two biases, and
  return every sample scaled channel by channel by logistic(w2 · max(w1 · mean + b1, 0) + b2), the mean taken over a
  channel's 196 positions with the single-precision literal nearest 1/196. The kernel lays the samples position-major
  (196 × 128 × 512), handles 16 samples per grid point, sums the positions along the leading axis and does both
  contractions on the matrix unit; the reference keeps each sample channel-major (512 × 196), handles one sample per
  grid point and does both contractions as a broadcast product followed by a lane sum. On the extended reals a sum
  over one axis and a matrix product into a zero accumulator are plain finite sums, the two layouts enumerate the same
  entries, and the only difference left is the order of the two factors in each product — multiplication commutes.
  Nothing needs the inputs to be finite.

  Proof/ChannelGate.lean states the function for one sample and for the five arguments; Proof/Kernel*.lean read the
  idealized kernel's run as that function (the body at an entry, the blocks as restrictions of one whole array, the
  host lines around the region), Proof/Reference*.lean do the same for the idealized reference. The three frames are
  the generated ones; no operation was rewritten by the idealization, so there is nothing to preserve.
-/
import proofs.«108726_g2000300965261445_pallasbulk_831_5_alg».proof.Defs
import proofs.«108726_g2000300965261445_pallasbulk_831_5_alg».proof.Proof.Gen.Kernel
import proofs.«108726_g2000300965261445_pallasbulk_831_5_alg».proof.Proof.Gen.Kernel.Skeleton
import proofs.«108726_g2000300965261445_pallasbulk_831_5_alg».proof.Proof.Gen.Kernel.Launch
import proofs.«108726_g2000300965261445_pallasbulk_831_5_alg».proof.Proof.Gen.Kernel.Points
import proofs.«108726_g2000300965261445_pallasbulk_831_5_alg».proof.Proof.Gen.Kernel.Frame
import proofs.«108726_g2000300965261445_pallasbulk_831_5_alg».proof.Proof.Gen.KernelIdeal
import proofs.«108726_g2000300965261445_pallasbulk_831_5_alg».proof.Proof.Gen.KernelIdeal.Skeleton
import proofs.«108726_g2000300965261445_pallasbulk_831_5_alg».proof.Proof.Gen.KernelIdeal.Launch
import proofs.«108726_g2000300965261445_pallasbulk_831_5_alg».proof.Proof.Gen.KernelIdeal.Points
import proofs.«108726_g2000300965261445_pallasbulk_831_5_alg».proof.Proof.Gen.KernelIdeal.Frame
import proofs.«108726_g2000300965261445_pallasbulk_831_5_alg».proof.Proof.Gen.ReferenceIdeal
import proofs.«108726_g2000300965261445_pallasbulk_831_5_alg».proof.Proof.Gen.ReferenceIdeal.Skeleton
import proofs.«108726_g2000300965261445_pallasbulk_831_5_alg».proof.Proof.Gen.ReferenceIdeal.Launch
import proofs.«108726_g2000300965261445_pallasbulk_831_5_alg».proof.Proof.Gen.ReferenceIdeal.Points
import proofs.«108726_g2000300965261445_pallasbulk_831_5_alg».proof.Proof.Gen.ReferenceIdeal.Frame
import proofs.«108726_g2000300965261445_pallasbulk_831_5_alg».proof.Proof.Gen.Pre_finite_inputs
import proofs.«108726_g2000300965261445_pallasbulk_831_5_alg».proof.Proof.KernelValue
import proofs.«108726_g2000300965261445_pallasbulk_831_5_alg».proof.Proof.ReferenceValue
import Idealize.ShloMosaic.Adequacy
import Idealize.ShloMosaic.Init

noncomputable section

namespace Cert.Proof

open Idealize.ShloMosaic Idealize.SL.Sem Cert.Kernel

/-- Both idealized programs end with the specification's result of their arguments, and the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ?_) (Cert.ReferenceIdeal.Hand.run m' ρ')
  obtain ⟨a0, a1, a2, a3, a4⟩ := hagree c
  refine ⟨(h c).1.trans ?_, (h c).2⟩
  rw [a0, a1, a2, a3, a4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
